-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x8 : Shape := ⟨3, ![16, 4096, 8]⟩
abbrev S8 : Shape := ⟨1, ![8]⟩
abbrev S2048x8 : Shape := ⟨2, ![2048, 8]⟩
abbrev S2048 : Shape := ⟨1, ![2048]⟩
abbrev S8x2048 : Shape := ⟨2, ![8, 2048]⟩
abbrev S_ : Shape := ⟨0, ![]⟩

class Facts : Prop where
  bcast_S_S16x4096x8 : S_.BroadcastsInDim S16x4096x8 (![] : Fin 0 → Fin S16x4096x8.rank)
  reducesTo_S16x4096x8_S_d0_1_2 : S16x4096x8.ReducesTo [0, 1, 2] S_
  h_S_ : 0 < S_.numel
  bcast_S_S8 : S_.BroadcastsInDim S8 (![] : Fin 0 → Fin S8.rank)
  reducesTo_S8_S_d0 : S8.ReducesTo [0] S_
  bcast_S_S2048x8 : S_.BroadcastsInDim S2048x8 (![] : Fin 0 → Fin S2048x8.rank)
  reducesTo_S2048x8_S_d0_1 : S2048x8.ReducesTo [0, 1] S_
  bcast_S_S2048 : S_.BroadcastsInDim S2048 (![] : Fin 0 → Fin S2048.rank)
  reducesTo_S2048_S_d0 : S2048.ReducesTo [0] S_
  bcast_S_S8x2048 : S_.BroadcastsInDim S8x2048 (![] : Fin 0 → Fin S8x2048.rank)
  reducesTo_S8x2048_S_d0_1 : S8x2048.ReducesTo [0, 1] S_

variable [Facts]

def fn_part1 {F : FTy → Type} [FloatOps F] (main_arg4 : FVec F S8x2048 .f32) (main_arg5 : FVec F S8 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S8x2048 .f32 := Host.absf main_arg4
  let main_cst_6 : FVec F S_ .f32 := constant S_ .f32 0x7F800000#32
  let main_v20 : FVec F S8x2048 .f32 := broadcastInDim S8x2048 ![] bcast_S_S8x2048 main_cst_6
  let main_v21 : IVec S8x2048 1 := cmpf .olt main_v19 main_v20
  let main_c_7 : IVec S_ 1 := constantI S_ 1 1#1
  let main_v22 : IVec S_ 1 := (fun x v => Host.reduce IntOp.andi x v reducesTo_S8x2048_S_d0_1 h_S_) main_v21 main_c_7
  let main_v23 : IVec S_ 1 := andi main_v18 main_v22
  let main_v24 : FVec F S8 .f32 := Host.absf main_arg5
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  main_v28

def fn {F : FTy → Type} [FloatOps F] (main_arg0 : FVec F S16x4096x8 .f32) (main_arg1 : FVec F S8 .f32) (main_arg2 : FVec F S2048x8 .f32) (main_arg3 : FVec F S2048 .f32) (main_arg4 : FVec F S8x2048 .f32) (main_arg5 : FVec F S8 .f32) : IVec S_ 1 :=
  let main_v0 : FVec F S16x4096x8 .f32 := Host.absf main_arg0
  let main_cst : FVec F S_ .f32 := constant S_ .f32 0x7F800000#32
  let main_v1 : FVec F S16x4096x8 .f32 := broadcastInDim S16x4096x8 ![] bcast_S_S16x4096x8 main_cst
  let main_v2 : IVec S16x4096x8 1 := cmpf .olt main_v0 main_v1
  let main_c : IVec S_ 1 := constantI S_ 1 1#1
  let main_v3 : IVec S_ 1 := (fun x v => Host.reduce IntOp.andi x v reducesTo_S16x4096x8_S_d0_1_2 h_S_) main_v2 main_c
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  let main_v9 : FVec F S2048x8 .f32 := Host.absf main_arg2
  let main_cst_2 : FVec F S_ .f32 := constant S_ .f32 0x7F800000#32
  let main_v10 : FVec F S2048x8 .f32 := broadcastInDim S2048x8 ![] bcast_S_S2048x8 main_cst_2
  let main_v11 : IVec S2048x8 1 := cmpf .olt main_v9 main_v10
  let main_c_3 : IVec S_ 1 := constantI S_ 1 1#1
  let main_v12 : IVec S_ 1 := (fun x v => Host.reduce IntOp.andi x v reducesTo_S2048x8_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_v13 main_v16
-- ==== Kernel.lean ====
abbrev S16x4096x8 : Shape := ⟨3, ![16, 4096, 8]⟩
abbrev S8 : Shape := ⟨1, ![8]⟩
abbrev S2048x8 : Shape := ⟨2, ![2048, 8]⟩
abbrev S2048 : Shape := ⟨1, ![2048]⟩
abbrev S8x2048 : Shape := ⟨2, ![8, 2048]⟩
abbrev S65536x8 : Shape := ⟨2, ![65536, 8]⟩
abbrev S1024x8 : Shape := ⟨2, ![1024, 8]⟩
abbrev S1x8 : Shape := ⟨2, ![1, 8]⟩
abbrev S1024x2048 : Shape := ⟨2, ![1024, 2048]⟩
abbrev S1x2048 : Shape := ⟨2, ![1, 2048]⟩

abbrev nBuf : Space → Nat
  | .hbm => 11
  | .vmem => 9
  | .smem => 0
  | _ => 0

abbrev bufTy : (tb : Table) → Fin (tcTables nBuf tb) → BufTy
  | .hbm, ⟨0, _⟩ => ⟨S16x4096x8, .f32⟩
  | .hbm, ⟨1, _⟩ => ⟨S8, .f32⟩
  | .hbm, ⟨2, _⟩ => ⟨S2048x8, .f32⟩
  | .hbm, ⟨3, _⟩ => ⟨S2048, .f32⟩
  | .hbm, ⟨4, _⟩ => ⟨S8x2048, .f32⟩
  | .hbm, ⟨5, _⟩ => ⟨S8, .f32⟩
  | .hbm, ⟨6, _⟩ => ⟨S65536x8, .f32⟩
  | .hbm, ⟨7, _⟩ => ⟨S8x2048, .f32⟩
  | .hbm, ⟨8, _⟩ => ⟨S2048x8, .f32⟩
  | .hbm, ⟨9, _⟩ => ⟨S65536x8, .f32⟩
  | .hbm, ⟨10, _⟩ => ⟨S16x4096x8, .f32⟩
  | .local _ .vmem, ⟨0, _⟩ => ⟨S1024x8, .f32⟩
  | .local _ .vmem, ⟨1, _⟩ => ⟨S1024x8, .f32⟩
  | .local _ .vmem, ⟨2, _⟩ => ⟨S8, .f32⟩
  | .local _ .vmem, ⟨3, _⟩ => ⟨S8x2048, .f32⟩
  | .local _ .vmem, ⟨4, _⟩ => ⟨S2048, .f32⟩
  | .local _ .vmem, ⟨5, _⟩ => ⟨S2048x8, .f32⟩
  | .local _ .vmem, ⟨6, _⟩ => ⟨S8, .f32⟩
  | .local _ .vmem, ⟨7, _⟩ => ⟨S1024x8, .f32⟩
  | .local _ .vmem, ⟨8, _⟩ => ⟨S1024x8, .f32⟩
  | _, _ => ⟨S16x4096x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x8 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S16x4096x8_S65536x8 : S16x4096x8.ShapeCasts S65536x8
  transposes_S2048x8_S8x2048_1_0 : S2048x8.Transposes [1, 0] S8x2048
  transposes_S8x2048_S2048x8_1_0 : S8x2048.Transposes [1, 0] S2048x8
  inb_S1024x8_S1024x8_0_0 : ∀ a, (![0, 0] : Fin 2 → Nat) a + S1024x8.size a ≤ S1024x8.size a
  h_S1024x8 : 0 < S1024x8.numel
  shapeCasts_S1024x8_S1024x8 : S1024x8.ShapeCasts S1024x8
  inb_S8_S8_0 : ∀ a, (![0] : Fin 1 → Nat) a + S8.size a ≤ S8.size a
  h_S8 : 0 < S8.numel
  shapeCasts_S8_S1x8 : S8.ShapeCasts S1x8
  broadcasts_S1x8_S1024x8 : S1x8.Broadcasts S1024x8
  bitsLt_bf16_f32 : FTy.bits .bf16 < FTy.bits .f32
  inb_S8x2048_S8x2048_0_0 : ∀ a, (![0, 0] : Fin 2 → Nat) a + S8x2048.size a ≤ S8x2048.size a
  h_S8x2048 : 0 < S8x2048.numel
  shapeCasts_S8x2048_S8x2048 : S8x2048.ShapeCasts S8x2048
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S1024x2048 : S1x2048.Broadcasts S1024x2048
  inb_S2048x8_S2048x8_0_0 : ∀ a, (![0, 0] : Fin 2 → Nat) a + S2048x8.size a ≤ S2048x8.size a
  h_S2048x8 : 0 < S2048x8.numel
  shapeCasts_S2048x8_S2048x8 : S2048x8.ShapeCasts S2048x8
  shapeCasts_S65536x8_S16x4096x8 : S65536x8.ShapeCasts S16x4096x8
  dot_S1024x8_S8x2048_S1024x2048_1_0_0_1_n_n_wf : DotDims.WF S1024x8 S8x2048 S1024x2048 [1] [0] [0] [1] [] []
  dot_S1024x2048_S2048x8_S1024x8_1_0_0_1_n_n_wf : DotDims.WF S1024x2048 S2048x8 S1024x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x8.size a ≤ S65536x8.size a
  hwx0_0 : ∀ i : grid0.Coords, EltTy.bits .f32 = 32 ∨ (Rect.block (s := S65536x8) S1024x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8.size a ≤ S8.size a
  hwx0_1 : ∀ i : grid0.Coords, EltTy.bits .f32 = 32 ∨ (Rect.block (s := S8) S8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x2048.size a ≤ S8x2048.size a
  hwx0_2 : ∀ i : grid0.Coords, EltTy.bits .f32 = 32 ∨ (Rect.block (s := S8x2048) S8x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048.size a ≤ S2048.size a
  hwx0_3 : ∀ i : grid0.Coords, EltTy.bits .f32 = 32 ∨ (Rect.block (s := S2048) S2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x8.size a ≤ S2048x8.size a
  hwx0_4 : ∀ i : grid0.Coords, EltTy.bits .f32 = 32 ∨ (Rect.block (s := S2048x8) S2048x8.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8.size a ≤ S8.size a
  hwx0_5 : ∀ i : grid0.Coords, EltTy.bits .f32 = 32 ∨ (Rect.block (s := S8) S8.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x8.size a ≤ S65536x8.size a
  hwx0_6 : ∀ i : grid0.Coords, EltTy.bits .f32 = 32 ∨ (Rect.block (s := S65536x8) S1024x8.size (cc0_transform_6 i) (hinb0_6 i)).WholeWords (EltTy.packing .f32)

variable [Facts₀]

def dot_S1024x8_S8x2048_S1024x2048_1_0_0_1_n_n : DotDims S1024x8 S8x2048 S1024x2048 where
  lhsContracting := [1]
  rhsContracting := [0]
  lhsNonContracting := [0]
  rhsNonContracting := [1]
  lhsBatch := []
  rhsBatch := []
  wf := dot_S1024x8_S8x2048_S1024x2048_1_0_0_1_n_n_wf
def dot_S1024x2048_S2048x8_S1024x8_1_0_0_1_n_n : DotDims S1024x2048 S2048x8 S1024x8 where
  lhsContracting := [1]
  rhsContracting := [0]
  lhsNonContracting := [0]
  rhsNonContracting := [1]
  lhsBatch := []
  rhsBatch := []
  wf := dot_S1024x2048_S2048x8_S1024x8_1_0_0_1_n_n_wf

abbrev win0_0 : Pipeline.Window sig grid0 :=
  Pipeline.Window.ofSpec (Memref.whole main_v0) S1024x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S2048x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1024x8.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16x4096x8 : Shape := ⟨3, ![16, 4096, 8]⟩
abbrev S8 : Shape := ⟨1, ![8]⟩
abbrev S2048x8 : Shape := ⟨2, ![2048, 8]⟩
abbrev S2048 : Shape := ⟨1, ![2048]⟩
abbrev S8x2048 : Shape := ⟨2, ![8, 2048]⟩
abbrev S1x1x8 : Shape := ⟨3, ![1, 1, 8]⟩
abbrev S16x4096x2048 : Shape := ⟨3, ![16, 4096, 2048]⟩
abbrev S1x1x2048 : Shape := ⟨3, ![1, 1, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S16x4096x8, .f32⟩
  | .hbm, ⟨1, _⟩ => ⟨S8, .f32⟩
  | .hbm, ⟨2, _⟩ => ⟨S2048x8, .f32⟩
  | .hbm, ⟨3, _⟩ => ⟨S2048, .f32⟩
  | .hbm, ⟨4, _⟩ => ⟨S8x2048, .f32⟩
  | .hbm, ⟨5, _⟩ => ⟨S8, .f32⟩
  | .hbm, ⟨6, _⟩ => ⟨S16x4096x8, .f32⟩
  | .hbm, ⟨7, _⟩ => ⟨S8, .f32⟩
  | .hbm, ⟨8, _⟩ => ⟨S1x1x8, .f32⟩
  | .hbm, ⟨9, _⟩ => ⟨S16x4096x8, .f32⟩
  | .hbm, ⟨10, _⟩ => ⟨S16x4096x8, .f32⟩
  | .hbm, ⟨11, _⟩ => ⟨S16x4096x2048, .f32⟩
  | .hbm, ⟨12, _⟩ => ⟨S1x1x2048, .f32⟩
  | .hbm, ⟨13, _⟩ => ⟨S16x4096x2048, .f32⟩
  | .hbm, ⟨14, _⟩ => ⟨S16x4096x2048, .f32⟩
  | .hbm, ⟨15, _⟩ => ⟨S_, .f32⟩
  | .hbm, ⟨16, _⟩ => ⟨S16x4096x2048, .f32⟩
  | .hbm, ⟨17, _⟩ => ⟨S16x4096x2048, .f32⟩
  | .hbm, ⟨18, _⟩ => ⟨S16x4096x8, .f32⟩
  | .hbm, ⟨19, _⟩ => ⟨S1x1x8, .f32⟩
  | .hbm, ⟨20, _⟩ => ⟨S16x4096x8, .f32⟩
  | .hbm, ⟨21, _⟩ => ⟨S16x4096x8, .f32⟩
  | _, _ => ⟨S16x4096x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_cst : Ref sig .tc := ⟨.hbm, 15, rfl⟩
abbrev main_call0_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S8_S1x1x8_2 : S8.BroadcastsInDim S1x1x8 (![2] : Fin 1 → Fin S1x1x8.rank)
  bcast_S1x1x8_S16x4096x8_0_1_2 : S1x1x8.BroadcastsInDim S16x4096x8 (![0, 1, 2] : Fin 3 → Fin S16x4096x8.rank)
  bcast_S2048_S1x1x2048_2 : S2048.BroadcastsInDim S1x1x2048 (![2] : Fin 1 → Fin S1x1x2048.rank)
  bcast_S1x1x2048_S16x4096x2048_0_1_2 : S1x1x2048.BroadcastsInDim S16x4096x2048 (![0, 1, 2] : Fin 3 → Fin S16x4096x2048.rank)
  bcast_S_S16x4096x2048 : S_.BroadcastsInDim S16x4096x2048 (![] : Fin 0 → Fin S16x4096x2048.rank)
  dot_S16x4096x8_S2048x8_S16x4096x2048_2_1_01_0_n_n_wf : DotDims.WF S16x4096x8 S2048x8 S16x4096x2048 [2] [1] [0, 1] [0] [] []
  dot_S16x4096x2048_S8x2048_S16x4096x8_2_1_01_0_n_n_wf : DotDims.WF S16x4096x2048 S8x2048 S16x4096x8 [2] [1] [0, 1] [0] [] []

variable [Facts₀]

def dot_S16x4096x8_S2048x8_S16x4096x2048_2_1_01_0_n_n : DotDims S16x4096x8 S2048x8 S16x4096x2048 where
  lhsContracting := [2]
  rhsContracting := [1]
  lhsNonContracting := [0, 1]
  rhsNonContracting := [0]
  lhsBatch := []
  rhsBatch := []
  wf := dot_S16x4096x8_S2048x8_S16x4096x2048_2_1_01_0_n_n_wf
def dot_S16x4096x2048_S8x2048_S16x4096x8_2_1_01_0_n_n : DotDims S16x4096x2048 S8x2048 S16x4096x8 where
  lhsContracting := [2]
  rhsContracting := [1]
  lhsNonContracting := [0, 1]
  rhsNonContracting := [0]
  lhsBatch := []
  rhsBatch := []
  wf := dot_S16x4096x2048_S8x2048_S16x4096x8_2_1_01_0_n_n_wf

class Facts : Prop extends Facts₀ where

variable [Facts]
-- ==== Proof.Blocks.lean ====
/-
  What the region finds, and what each grid point loads.

  Before the region the host flattens the input to `[65536, 8]` (row `4096 · b + s` is row `(b, s)`) and transposes
  both weight matrices. The region's 64 points each take 1024 consecutive rows of the flattened input — point `t`
  takes rows `1024 · t` to `1024 · t + 1023` — and the whole of every other operand.
-/
import proofs.«135342_j65481071404952_1_alg».proof.Proof.Gen.KernelIdeal.Frame
import Idealize.ShloMosaic.Lib.Pipeline.Value
import Idealize.ShloMosaic.Lib.StableHlo.Run
import Idealize.ShloMosaic.Lib.ValueLayout

set_option maxRecDepth 16384

noncomputable section

namespace Cert.FeedForward.Blocks

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-! ## The arrays the host writes before the region -/

/-- The flattened input is the input read through the change of shape. -/
theorem flat_entry (c : Dev nD) :
    (V m c main_v0 : S65536x8.Idx → EReal)
      = shapeCast S65536x8 (m ((c : Thread nD τ).loc main_arg0)) shapeCasts_S16x4096x8_S65536x8 := by
  show StableHlo.after hostOps0 (fun b => m (c, b)) (Proc.devRef .tc main_v0) = _
  after_results <;> rfl

/-- The first layer's weights as the region finds them: transposed. -/
theorem up_entry (c : Dev nD) :
    (V m c main_v1 : S8x2048.Idx → EReal)
      = transpose S8x2048 [1, 0] (m ((c : Thread nD τ).loc main_arg2)) transposes_S2048x8_S8x2048_1_0 := by
  show StableHlo.after hostOps0 (fun b => m (c, b)) (Proc.devRef .tc main_v1) = _
  after_results <;> rfl

/-- The second layer's weights as the region finds them: transposed. -/
theorem down_entry (c : Dev nD) :
    (V m c main_v2 : S2048x8.Idx → EReal)
      = transpose S2048x8 [1, 0] (m ((c : Thread nD τ).loc main_arg4)) transposes_S8x2048_S2048x8_1_0 := by
  show StableHlo.after hostOps0 (fun b => m (c, b)) (Proc.devRef .tc main_v2) = _
  after_results <;> rfl

/-! ## Which block each point takes -/

/-- Over the 64 points: the input's and the output's blocks are block `t` of the rows and the only block of the
    columns; every other operand has one block. -/
theorem idx_facts : ∀ t : Fin cfg0.N,
    win0_0.index t (0 : Fin 2) = t.val ∧ win0_0.index t (1 : Fin 2) = 0
    ∧ win0_6.index t (0 : Fin 2) = t.val ∧ win0_6.index t (1 : Fin 2) = 0
    ∧ win0_1.index t (0 : Fin 1) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0 :=
  (by decide +kernel : ∀ t : Fin grid0.N, _)

theorem points : cfg0.N = 64 := N_0

/-- Row `p` of point `t`'s block is row `1024 · t + p` of the flattened arrays. -/
def rowAt (t : Fin cfg0.N) (p : Fin 1024) : Fin 65536 :=
  ⟨t.val * 1024 + p.val, by have ht : t.val < 64 := lt_of_lt_of_eq t.isLt points; have hp := p.isLt; omega⟩

/-! ## The blocks, read at an index -/

/-- Row `p` of the input block at point `t` is row `1024 · t + p` of the flattened input. -/
theorem rows_blk (c : Dev nD) (t : Fin cfg0.N) (p : Fin 1024) (k : Fin 8) :
    iblk m c 0 t (ix2 p k) = V m c main_v0 (ix2 (rowAt t p) k) := by
  obtain ⟨e0, e1, -⟩ := idx_facts t
  show V m c main_v0 (((cfg0.win 0).blk t).view.emb (ix2 p k)) = _
  refine congrArg (V m c main_v0) (funext fun a => Fin.ext ?_)
  match a with
  | ⟨0, _⟩ => show win0_0.index t (0 : Fin 2) * 1024 + 1 * p.val = t.val * 1024 + p.val; omega
  | ⟨1, _⟩ => show win0_0.index t (1 : Fin 2) * 8 + 1 * k.val = k.val; omega

/-- The angles are loaded whole at every point. -/
theorem angles_blk (c : Dev nD) (t : Fin cfg0.N) (k : Fin 8) :
    iblk m c 1 t (ix1 k) = V m c main_arg1 (ix1 k) := by
  obtain ⟨-, -, -, -, e, -⟩ := idx_facts t
  show V m c main_arg1 (((cfg0.win 1).blk t).view.emb (ix1 k)) = _
  refine congrArg (V m c main_arg1) (funext fun a => Fin.ext ?_)
  match a with
  | ⟨0, _⟩ => show win0_1.index t (0 : Fin 1) * 8 + 1 * k.val = k.val; omega

/-- The first layer's transposed weights are loaded whole at every point. -/
theorem up_blk (c : Dev nD) (t : Fin cfg0.N) (k : Fin 8) (f : Fin 2048) :
    iblk m c 2 t (ix2 k f) = V m c main_v1 (ix2 k f) := by
  obtain ⟨-, -, -, -, -, e0, e1, -⟩ := idx_facts t
  show V m c main_v1 (((cfg0.win 2).blk t).view.emb (ix2 k f)) = _
  refine congrArg (V m c main_v1) (funext fun a => Fin.ext ?_)
  match a with
  | ⟨0, _⟩ => show win0_2.index t (0 : Fin 2) * 8 + 1 * k.val = k.val; omega
  | ⟨1, _⟩ => show win0_2.index t (1 : Fin 2) * 2048 + 1 * f.val = f.val; omega

/-- The first layer's bias is loaded whole at every point. -/
theorem upBias_blk (c : Dev nD) (t : Fin cfg0.N) (f : Fin 2048) :
    iblk m c 3 t (ix1 f) = V m c main_arg3 (ix1 f) := by
  obtain ⟨-, -, -, -, -, -, -, e, -⟩ := idx_facts t
  show V m c main_arg3 (((cfg0.win 3).blk t).view.emb (ix1 f)) = _
  refine congrArg (V m c main_arg3) (funext fun a => Fin.ext ?_)
  match a with
  | ⟨0, _⟩ => show win0_3.index t (0 : Fin 1) * 2048 + 1 * f.val = f.val; omega

/-- The second layer's transposed weights are loaded whole at every point. -/
theorem down_blk (c : Dev nD) (t : Fin cfg0.N) (f : Fin 2048) (q : Fin 8) :
    iblk m c 4 t (ix2 f q) = V m c main_v2 (ix2 f q) := by
  obtain ⟨-, -, -, -, -, -, -, -, e0, e1, -⟩ := idx_facts t
  show V m c main_v2 (((cfg0.win 4).blk t).view.emb (ix2 f q)) = _
  refine congrArg (V m c main_v2) (funext fun a => Fin.ext ?_)
  match a with
  | ⟨0, _⟩ => show win0_4.index t (0 : Fin 2) * 2048 + 1 * f.val = f.val; omega
  | ⟨1, _⟩ => show win0_4.index t (1 : Fin 2) * 8 + 1 * q.val = q.val; omega

/-- The second layer's bias is loaded whole at every point. -/
theorem downBias_blk (c : Dev nD) (t : Fin cfg0.N) (q : Fin 8) :
    iblk m c 5 t (ix1 q) = V m c main_arg5 (ix1 q) := by
  obtain ⟨-, -, -, -, -, -, -, -, -, -, e⟩ := idx_facts t
  show V m c main_arg5 (((cfg0.win 5).blk t).view.emb (ix1 q)) = _
  refine congrArg (V m c main_arg5) (funext fun a => Fin.ext ?_)
  match a with
  | ⟨0, _⟩ => show win0_5.index t (0 : Fin 1) * 8 + 1 * q.val = q.val; omega

/-- Entry `(p, q)` of the output block at point `t` sits at row `1024 · t + p`, column `q` of the flattened result. -/
theorem out_emb (t : Fin cfg0.N) (p : Fin 1024) (q : Fin 8) :
    ((cfg0.win 6).blk t).view.emb (ix2 p q) = ix2 (rowAt t p) q := by
  obtain ⟨-, -, e0, e1, -⟩ := idx_facts t
  refine funext fun a => Fin.ext ?_
  match a with
  | ⟨0, _⟩ => show win0_6.index t (0 : Fin 2) * 1024 + 1 * p.val = t.val * 1024 + p.val; omega
  | ⟨1, _⟩ => show win0_6.index t (1 : Fin 2) * 8 + 1 * q.val = q.val; omega

end Cert.FeedForward.Blocks

end
-- ==== Proof.Spec.lean ====
/-
  What both programs compute, as one function of the argument arrays.

  Each of the 16 · 4096 rows of the input carries 8 angles. A row is encoded wire by wire as
  `cos (x k) · cos (θ k)`, sent through a
  first affine layer of width 2048 (`w1`, `b1`), clipped below at zero, and sent through a second affine layer
  back to 8 values (`w2`, `b2`):

      hidden f = max (Σ k, cos (x k) · cos (θ k) · w1 f k + b1 f) 0
      out q    = Σ f, hidden f · w2 q f + b2 q.

  Everything is read on the extended reals, where a sum over a finite type does not depend on how its terms are
  grouped or ordered: that is the only law the comparison of the two programs needs, so the finiteness of the
  inputs is never used.
-/
import Idealize.ShloMosaic.PureOps.Ideal
import Idealize.ShloMosaic.Lib.ValueIdx

noncomputable section

namespace Cert.FeedForward

open Idealize.ShloMosaic Idealize.ShloMosaic.ValueIdx

/-- The shapes of the six arguments and of the result. -/
abbrev Rows : Shape := ⟨3, ![16, 4096, 8]⟩
abbrev Wires : Shape := ⟨1, ![8]⟩
abbrev Up : Shape := ⟨2, ![2048, 8]⟩
abbrev Width : Shape := ⟨1, ![2048]⟩
abbrev Down : Shape := ⟨2, ![8, 2048]⟩

/-- The zero the hidden layer is clipped at: the pattern both programs spell it by, left as written. -/
abbrev floor0 : EReal := Ideal.ofBits .f32 0x00000000#32

/-- Wire `k` of a row after the encoding: `cos (x k) · cos (θ k)`. -/
def encode (xr θ : Fin 8 → EReal) (k : Fin 8) : EReal := Ideal.cos (xr k) * Ideal.cos (θ k)

/-- Unit `f` of the hidden layer of a row: the first affine layer, clipped below at zero. -/
def hidden (xr θ : Fin 8 → EReal) (w1 : Fin 2048 → Fin 8 → EReal) (b1 : Fin 2048 → EReal) (f : Fin 2048) : EReal :=
  max ((∑ k : Fin 8, encode xr θ k * w1 f k) + b1 f) floor0

/-- Output `q` of a row: the second affine layer of the hidden units. -/
def outRow (xr θ : Fin 8 → EReal) (w1 : Fin 2048 → Fin 8 → EReal) (b1 : Fin 2048 → EReal)
    (w2 : Fin 8 → Fin 2048 → EReal) (b2 : Fin 8 → EReal) (q : Fin 8) : EReal :=
  (∑ f : Fin 2048, hidden xr θ w1 b1 f * w2 q f) + b2 q

/-- The result array: at `(b, s, q)`, output `q` of row `(b, s)` of `x`. -/
def G (x : Rows.Idx → EReal) (θ : Wires.Idx → EReal) (w1 : Up.Idx → EReal) (b1 : Width.Idx → EReal)
    (w2 : Down.Idx → EReal) (b2 : Wires.Idx → EReal) : Rows.Idx → EReal := fun i =>
  outRow (fun k => x (ix3 (i 0) (i 1) k)) (fun k => θ (ix1 k)) (fun f k => w1 (ix2 f k)) (fun f => b1 (ix1 f))
    (fun q f => w2 (ix2 q f)) (fun q => b2 (ix1 q)) (i 2)

end Cert.FeedForward

end
-- ==== Proof.Products.lean ====
/-
  The kernel's two matrix products, read at an index.

  Both are plain products of a `[rows, K]` by a `[K, cols]` operand into a zero accumulator: on the extended
  reals the entry at `(p, c)` is the sum over the contracted coordinate `k` of the left operand at `(p, k)` times
  the right operand at `(k, c)`. The first contracts the 8 wires into the 2048 hidden units, the second the 2048
  hidden units back into 8 outputs.
-/
import proofs.«135342_j65481071404952_1_alg».proof.Proof.Gen.KernelIdeal.Skeleton
import Idealize.ShloMosaic.Lib.ValueIdx
import Idealize.ShloMosaic.PureOps.Ideal.Laws

noncomputable section

namespace Cert.FeedForward.Products

open Cert.KernelIdeal Cert.KernelIdeal.Gen Idealize.ShloMosaic Idealize.ShloMosaic.ValueIdx

/-! ## Wires into hidden units: `[1024, 8] · [8, 2048]` -/

theorem up_lhs_0 (i : S1024x2048.Idx) (q : dot_S1024x8_S8x2048_S1024x2048_1_0_0_1_n_n.contr.Idx) :
    (dot_S1024x8_S8x2048_S1024x2048_1_0_0_1_n_n.lhsIdx i q 0).val = (i 0).val := by
  unfold DotDims.lhsIdx
  rw [dif_neg (show ¬(0 : Fin S1024x8.rank) ∈ dot_S1024x8_S8x2048_S1024x2048_1_0_0_1_n_n.lhsBatch by decide), dif_pos (show (0 : Fin S1024x8.rank) ∈ dot_S1024x8_S8x2048_S1024x2048_1_0_0_1_n_n.lhsNonContracting by decide)]
  rfl
theorem up_lhs_1 (i : S1024x2048.Idx) (q : dot_S1024x8_S8x2048_S1024x2048_1_0_0_1_n_n.contr.Idx) :
    (dot_S1024x8_S8x2048_S1024x2048_1_0_0_1_n_n.lhsIdx i q 1).val = (q ⟨0, by decide⟩).val :=
  dot_S1024x8_S8x2048_S1024x2048_1_0_0_1_n_n.lhsIdx_val_of_single rfl i q
theorem up_rhs_0 (i : S1024x2048.Idx) (q : dot_S1024x8_S8x2048_S1024x2048_1_0_0_1_n_n.contr.Idx) :
    (dot_S1024x8_S8x2048_S1024x2048_1_0_0_1_n_n.rhsIdx i q 0).val = (q ⟨0, by decide⟩).val :=
  dot_S1024x8_S8x2048_S1024x2048_1_0_0_1_n_n.rhsIdx_val_of_single rfl i q
theorem up_rhs_1 (i : S1024x2048.Idx) (q : dot_S1024x8_S8x2048_S1024x2048_1_0_0_1_n_n.contr.Idx) :
    (dot_S1024x8_S8x2048_S1024x2048_1_0_0_1_n_n.rhsIdx i q 1).val = (i 1).val := by
  unfold DotDims.rhsIdx
  rw [dif_neg (show ¬(1 : Fin S8x2048.rank) ∈ dot_S1024x8_S8x2048_S1024x2048_1_0_0_1_n_n.rhsBatch by decide), dif_pos (show (1 : Fin S8x2048.rank) ∈ dot_S1024x8_S8x2048_S1024x2048_1_0_0_1_n_n.rhsNonContracting by decide)]
  rfl

/-- Entry `(p, f)` of the first product: the row's 8 encoded wires against column `f` of the weights. -/
theorem up_apply (l : FVec Ideal S1024x8 .bf16) (r : FVec Ideal S8x2048 .bf16) (p : Fin 1024) (f : Fin 2048) :
    matmul dot_S1024x8_S8x2048_S1024x2048_1_0_0_1_n_n none l r (constant S1024x2048 .f32 0x00000000#32) (ix2 p f)
      = ∑ k : Fin 8, l (ix2 p k) * r (ix2 k f) := by
  show FloatOps.matmul dot_S1024x8_S8x2048_S1024x2048_1_0_0_1_n_n none l r (constant S1024x2048 .f32 0x00000000#32) (ix2 p f) = _
  rw [Ideal.matmul_constant_zero_apply, ← Equiv.sum_comp (contrEquiv1 dot_S1024x8_S8x2048_S1024x2048_1_0_0_1_n_n 8 rfl rfl).symm]
  refine Finset.sum_congr rfl fun k _ => ?_
  have hk := contrEquiv1_symm_val dot_S1024x8_S8x2048_S1024x2048_1_0_0_1_n_n 8 rfl rfl k
  have el : dot_S1024x8_S8x2048_S1024x2048_1_0_0_1_n_n.lhsIdx (ix2 p f) ((contrEquiv1 dot_S1024x8_S8x2048_S1024x2048_1_0_0_1_n_n 8 rfl rfl).symm k) = ix2 p k := funext fun a => Fin.ext (by
    match a with
    | ⟨0, _⟩ => exact up_lhs_0 _ _
    | ⟨1, _⟩ => exact (up_lhs_1 _ _).trans hk)
  have er : dot_S1024x8_S8x2048_S1024x2048_1_0_0_1_n_n.rhsIdx (ix2 p f) ((contrEquiv1 dot_S1024x8_S8x2048_S1024x2048_1_0_0_1_n_n 8 rfl rfl).symm k) = ix2 k f := funext fun a => Fin.ext (by
    match a with
    | ⟨0, _⟩ => exact (up_rhs_0 _ _).trans hk
    | ⟨1, _⟩ => exact up_rhs_1 _ _)
  rw [el, er]

/-! ## Hidden units into outputs: `[1024, 2048] · [2048, 8]` -/

theorem down_lhs_0 (i : S1024x8.Idx) (q : dot_S1024x2048_S2048x8_S1024x8_1_0_0_1_n_n.contr.Idx) :
    (dot_S1024x2048_S2048x8_S1024x8_1_0_0_1_n_n.lhsIdx i q 0).val = (i 0).val := by
  unfold DotDims.lhsIdx
  rw [dif_neg (show ¬(0 : Fin S1024x2048.rank) ∈ dot_S1024x2048_S2048x8_S1024x8_1_0_0_1_n_n.lhsBatch by decide), dif_pos (show (0 : Fin S1024x2048.rank) ∈ dot_S1024x2048_S2048x8_S1024x8_1_0_0_1_n_n.lhsNonContracting by decide)]
  rfl
theorem down_lhs_1 (i : S1024x8.Idx) (q : dot_S1024x2048_S2048x8_S1024x8_1_0_0_1_n_n.contr.Idx) :
    (dot_S1024x2048_S2048x8_S1024x8_1_0_0_1_n_n.lhsIdx i q 1).val = (q ⟨0, by decide⟩).val :=
  dot_S1024x2048_S2048x8_S1024x8_1_0_0_1_n_n.lhsIdx_val_of_single rfl i q
theorem down_rhs_0 (i : S1024x8.Idx) (q : dot_S1024x2048_S2048x8_S1024x8_1_0_0_1_n_n.contr.Idx) :
    (dot_S1024x2048_S2048x8_S1024x8_1_0_0_1_n_n.rhsIdx i q 0).val = (q ⟨0, by decide⟩).val :=
  dot_S1024x2048_S2048x8_S1024x8_1_0_0_1_n_n.rhsIdx_val_of_single rfl i q
theorem down_rhs_1 (i : S1024x8.Idx) (q : dot_S1024x2048_S2048x8_S1024x8_1_0_0_1_n_n.contr.Idx) :
    (dot_S1024x2048_S2048x8_S1024x8_1_0_0_1_n_n.rhsIdx i q 1).val = (i 1).val := by
  unfold DotDims.rhsIdx
  rw [dif_neg (show ¬(1 : Fin S2048x8.rank) ∈ dot_S1024x2048_S2048x8_S1024x8_1_0_0_1_n_n.rhsBatch by decide), dif_pos (show (1 : Fin S2048x8.rank) ∈ dot_S1024x2048_S2048x8_S1024x8_1_0_0_1_n_n.rhsNonContracting by decide)]
  rfl

/-- Entry `(p, q)` of the second product: the row's 2048 hidden units against column `q` of the weights. -/
theorem down_apply (l : FVec Ideal S1024x2048 .bf16) (r : FVec Ideal S2048x8 .bf16) (p : Fin 1024) (q : Fin 8) :
    matmul dot_S1024x2048_S2048x8_S1024x8_1_0_0_1_n_n none l r (constant S1024x8 .f32 0x00000000#32) (ix2 p q)
      = ∑ f : Fin 2048, l (ix2 p f) * r (ix2 f q) := by
  show FloatOps.matmul dot_S1024x2048_S2048x8_S1024x8_1_0_0_1_n_n none l r (constant S1024x8 .f32 0x00000000#32) (ix2 p q) = _
  rw [Ideal.matmul_constant_zero_apply, ← Equiv.sum_comp (contrEquiv1 dot_S1024x2048_S2048x8_S1024x8_1_0_0_1_n_n 2048 rfl rfl).symm]
  refine Finset.sum_congr rfl fun k _ => ?_
  have hk := contrEquiv1_symm_val dot_S1024x2048_S2048x8_S1024x8_1_0_0_1_n_n 2048 rfl rfl k
  have el : dot_S1024x2048_S2048x8_S1024x8_1_0_0_1_n_n.lhsIdx (ix2 p q) ((contrEquiv1 dot_S1024x2048_S2048x8_S1024x8_1_0_0_1_n_n 2048 rfl rfl).symm k) = ix2 p k := funext fun a => Fin.ext (by
    match a with
    | ⟨0, _⟩ => exact down_lhs_0 _ _
    | ⟨1, _⟩ => exact (down_lhs_1 _ _).trans hk)
  have er : dot_S1024x2048_S2048x8_S1024x8_1_0_0_1_n_n.rhsIdx (ix2 p q) ((contrEquiv1 dot_S1024x2048_S2048x8_S1024x8_1_0_0_1_n_n 2048 rfl rfl).symm k) = ix2 k q := funext fun a => Fin.ext (by
    match a with
    | ⟨0, _⟩ => exact (down_rhs_0 _ _).trans hk
    | ⟨1, _⟩ => exact down_rhs_1 _ _)
  rw [el, er]

end Cert.FeedForward.Products

end
-- ==== Proof.Payload.lean ====
/-
  What the kernel body stores, read at an index.

  At a grid point the body loads a block of 1024 rows (`x0`), the angles `θ` (`x1`), the first layer's weights
  transposed to `[8, 2048]` (`x2`) and its bias (`x3`), the second layer's weights transposed to `[2048, 8]` (`x4`)
  and its bias (`x5`), and stores one `[1024, 8]` value. Entry `(p, q)` of that value is output `q` of the network
  on row `p` of the block: the changes of float format are identities on the extended reals, a bias reshaped to
  one row and repeated over the rows reads that bias at the column, and each matrix product is the sum over its
  contracted coordinate.
-/
import proofs.«135342_j65481071404952_1_alg».proof.Proof.Spec
import proofs.«135342_j65481071404952_1_alg».proof.Proof.Products
import Idealize.ShloMosaic.Lib.ValueLayout

noncomputable section

namespace Cert.FeedForward.Payload

open Cert.KernelIdeal Cert.KernelIdeal.Gen Idealize.ShloMosaic Idealize.ShloMosaic.ValueIdx
open Cert.FeedForward Cert.FeedForward.Products

/-- Entry `(p, q)` of the stored value is output `q` of the network on row `p` of the loaded block, with the
    weights read through their transposes. -/
theorem stored_apply (x0 : Vec Ideal S1024x8 .f32) (x1 : Vec Ideal S8 .f32) (x2 : Vec Ideal S8x2048 .f32)
    (x3 : Vec Ideal S2048 .f32) (x4 : Vec Ideal S2048x8 .f32) (x5 : Vec Ideal S8 .f32) (p : Fin 1024) (q : Fin 8) :
    k0_pay1 (F := Ideal) x0 x1 x2 x3 x4 x5 (ix2 p q)
      = outRow (fun k => x0 (ix2 p k)) (fun k => x1 (ix1 k)) (fun f k => x2 (ix2 k f)) (fun f => x3 (ix1 f))
          (fun q' f => x4 (ix2 f q')) (fun q' => x5 (ix1 q')) q := by
  unfold k0_pay1 outRow hidden encode
  simp only [addf_apply, down_apply, up_apply, truncf_apply, maximumf_apply, mulf_apply, broadcastTo_1b_ab_apply,
    shapeCast_a_1a_apply, shapeCast_self, broadcast_apply]
  rfl

end Cert.FeedForward.Payload

end
-- ==== Proof.KernelValue.lean ====
/-
  The kernel's result.

  Every grid point writes back one block of 1024 rows, and entry `(p, q)` of the block written at point `t` is
  output `q` of the network on row `1024 · t + p` of the flattened input. The 64 blocks tile the `[65536, 8]` array
  the region writes (row `r` lies in block `r / 1024`), so after the region that array holds, at `(r, q)`, output
  `q` of the network on row `r`. The host then reshapes it to `[16, 4096, 8]`: entry `(b, s, q)` is entry
  `(4096 · b + s, q)`, and row `4096 · b + s` of the flattened input is row `(b, s)` of the input.
-/
import proofs.«135342_j65481071404952_1_alg».proof.Proof.Blocks
import proofs.«135342_j65481071404952_1_alg».proof.Proof.Payload

set_option maxRecDepth 16384

noncomputable section

namespace Cert.FeedForward.KernelValue

open Cert.KernelIdeal Cert.KernelIdeal.Gen Idealize.ShloMosaic Idealize.ShloMosaic.TcCoe Idealize.ShloMosaic.ValueIdx
open Idealize.SL.Sem Idealize.ShloMosaic.StableHlo
open Cert.FeedForward Cert.FeedForward.Blocks Cert.FeedForward.Payload

variable (m : (ℓ : Loc nD τ sig) → Buf (Elt Ideal) ℓ) (ρ : Dev nD → PrngReg)

/-! ## The flattened result -/

/-- The network on every row of the flattened input, from the arrays as the region finds them. -/
def flatOut (c : Dev nD) : S65536x8.Idx → EReal := fun i =>
  outRow (fun k => V m c main_v0 (ix2 (i 0) k)) (fun k => V m c main_arg1 (ix1 k)) (fun f k => V m c main_v1 (ix2 k f))
    (fun f => V m c main_arg3 (ix1 f)) (fun q f => V m c main_v2 (ix2 f q)) (fun q => V m c main_arg5 (ix1 q)) (i 1)

theorem hz2 : (![0, 0] : Fin 2 → Nat) = fun _ => 0 := funext fun a => by fin_cases a <;> rfl
theorem hz1 : (![0] : Fin 1 → Nat) = fun _ => 0 := funext fun a => by fin_cases a <;> rfl

/-- What point `t` writes back is block `t` of the flattened result. -/
theorem flushed_eq (c : Dev nD) (t : Fin cfg0.N) :
    (dats m 0 c).flushed 6 t = ((cfg0.win 6).blk t).view.read (Elt Ideal) (flatOut m c) := by
  show (cfg0.win 6).cut (grid0.coords t) ((dats m 0 c).after 6 t) = _
  rw [after0_6]
  unfold out0_6
  rw [View.canon_unit_zero hz2]
  simp only [View.ld_unit_zero (S := S1024x8) hz2, View.ld_unit_zero (S := S8) hz1, View.ld_unit_zero (S := S8x2048) hz2,
    View.ld_unit_zero (S := S2048) hz1, View.ld_unit_zero (S := S2048x8) hz2]
  funext j
  obtain ⟨p, q, rfl⟩ : ∃ (p : Fin 1024) (q : Fin 8), j = ix2 p q := ⟨j 0, j 1, eq_ix2 j⟩
  show k0_pay1 (F := Ideal) (iblk m c 0 t) (iblk m c 1 t) (iblk m c 2 t) (iblk m c 3 t) (iblk m c 4 t) (iblk m c 5 t) (ix2 p q)
    = flatOut m c (((cfg0.win 6).blk t).view.emb (ix2 p q))
  rw [out_emb t p q]
  refine (stored_apply (iblk m c 0 t) (iblk m c 1 t) (iblk m c 2 t) (iblk m c 3 t) (iblk m c 4 t) (iblk m c 5 t) p q).trans ?_
  unfold flatOut
  simp only [rows_blk, angles_blk, up_blk, upBias_blk, down_blk, downBias_blk]

/-! ## The blocks tile the flattened result -/

/-- An index is in point `t`'s block iff each coordinate is in the block's range on its axis. -/
theorem mem_blk (t : Fin cfg0.N) (i : S65536x8.Idx) :
    i ∈ ((cfg0.win 6).blk t).view.set ↔ ∀ a : Fin 2, win0_6.index t a * S1024x8.size a ≤ (i a).val ∧ (i a).val < win0_6.index t a * S1024x8.size a + S1024x8.size a := by
  show i ∈ ((View.whole main_v3).slice (win0_6.rect t)).set ↔ _
  rw [View.set_slice_whole, Rect.mem_set_unit]
  exact Iff.rfl

/-- Row `r` lies in the block of point `r / 1024`. -/
theorem covered (i : S65536x8.Idx) :
    ∃ t : Fin cfg0.N, (cfg0.win 6).flush t = true ∧ i ∈ ((cfg0.win 6).blk t).view.set := by
  have hi0 : (i 0).val < 65536 := (i 0).isLt
  have hi1 : (i 1).val < 8 := (i 1).isLt
  have hlt : (i 0).val / 1024 < cfg0.N := by rw [points]; omega
  refine ⟨⟨(i 0).val / 1024, hlt⟩, flush0_6 _, ?_⟩
  rw [mem_blk]
  obtain ⟨-, -, e0, e1, -⟩ := idx_facts ⟨(i 0).val / 1024, hlt⟩
  have e0' : win0_6.index ⟨(i 0).val / 1024, hlt⟩ (0 : Fin 2) = (i 0).val / 1024 := e0
  intro a
  match a with
  | ⟨0, _⟩ => show win0_6.index ⟨(i 0).val / 1024, hlt⟩ (0 : Fin 2) * 1024 ≤ (i 0).val ∧ (i 0).val < win0_6.index ⟨(i 0).val / 1024, hlt⟩ (0 : Fin 2) * 1024 + 1024; omega
  | ⟨1, _⟩ => show win0_6.index ⟨(i 0).val / 1024, hlt⟩ (1 : Fin 2) * 8 ≤ (i 1).val ∧ (i 1).val < win0_6.index ⟨(i 0).val / 1024, hlt⟩ (1 : Fin 2) * 8 + 8; omega

/-- After the region the array it writes holds the flattened result. -/
theorem region_result (c : Dev nD) : (dats m 0 c).arrAt 6 cfg0.N = flatOut m c :=
  (dats m 0 c).arrAt_eq_of_cover 6 (flatOut m c) (fun t _ => flushed_eq m c t) covered

/-! ## The host's reshape after the region -/

/-- The program's result is the region's array read through the change of shape. -/
theorem tail_result (c : Dev nD) :
    Pipeline.afterTail₀ cfgs (dats m) 0 (V0 m) [hostOps1] c main_v4
      = shapeCast S16x4096x8 (flatOut m c) shapeCasts_S65536x8_S16x4096x8 := by
  unfold Pipeline.afterTail₀
  show StableHlo.after hostOps1 _ (Proc.devRef .tc main_v4) = _
  after_results
  have h : Pipeline.withArrays (cfgs 0).spec c (V0 m c) (fun w => (dats m 0 c).arrAt w (cfgs 0).N) (Proc.tc.devRef main_v3)
      = flatOut m c :=
    (Pipeline.withArrays_arr spec0 launch0.win.arr_inj c _ _ 6).trans (region_result m c)
  rw [h]
  rfl

/-! ## Back to the arguments -/

/-- Row `(b, s)` of the input is row `4096 · b + s` of the flattened arrays. -/
def flatRow (b : Fin 16) (s : Fin 4096) : Fin 65536 :=
  ⟨b.val * 4096 + s.val, by have hb := b.isLt; have hs := s.isLt; omega⟩

/-- The flattened input at row `4096 · b + s` is the input at `(b, s)`. -/
theorem flat_at (c : Dev nD) (b : Fin 16) (s : Fin 4096) (k : Fin 8) :
    V m c main_v0 (ix2 (flatRow b s) k) = m ((c : Thread nD τ).loc main_arg0) (ix3 b s k) := by
  rw [flat_entry]
  exact shapeCast_apply _ _ _ _ (by
    show (S16x4096x8.rowMajor (ix3 b s k)).val = (S65536x8.rowMajor (ix2 (flatRow b s) k)).val
    rw [Shape.rowMajor_val_three, Shape.rowMajor_val_two]
    rfl)

/-- The transposed first-layer weights at `(k, f)` are the weights at `(f, k)`. -/
theorem up_at (c : Dev nD) (k : Fin 8) (f : Fin 2048) :
    V m c main_v1 (ix2 k f) = m ((c : Thread nD τ).loc main_arg2) (ix2 f k) := by
  rw [up_entry]
  exact transpose_ix2_apply _ _ k f

/-- The transposed second-layer weights at `(f, q)` are the weights at `(q, f)`. -/
theorem down_at (c : Dev nD) (f : Fin 2048) (q : Fin 8) :
    V m c main_v2 (ix2 f q) = m ((c : Thread nD τ).loc main_arg4) (ix2 q f) := by
  rw [down_entry]
  exact transpose_ix2_apply _ _ f q

/-- The reshaped flattened result is the network on every row of the input. -/
theorem result_eq (c : Dev nD) :
    shapeCast S16x4096x8 (flatOut m c) shapeCasts_S65536x8_S16x4096x8
      = G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  funext i
  obtain ⟨b, s, q, rfl⟩ : ∃ (b : Fin 16) (s : Fin 4096) (q : Fin 8), i = ix3 b s q := ⟨i 0, i 1, i 2, eq_ix3 i⟩
  refine (shapeCast_apply (flatOut m c) shapeCasts_S65536x8_S16x4096x8 (ix3 b s q) (ix2 (flatRow b s) q) (by
    rw [Shape.rowMajor_val_three, Shape.rowMajor_val_two]
    rfl)).trans ?_
  show outRow (fun k => V m c main_v0 (ix2 (flatRow b s) k)) (fun k => V m c main_arg1 (ix1 k))
      (fun f k => V m c main_v1 (ix2 k f)) (fun f => V m c main_arg3 (ix1 f)) (fun q' f => V m c main_v2 (ix2 f q'))
      (fun q' => V m c main_arg5 (ix1 q')) q
    = outRow (fun k => m ((c : Thread nD τ).loc main_arg0) (ix3 b s k)) (fun k => m ((c : Thread nD τ).loc main_arg1) (ix1 k))
      (fun f k => m ((c : Thread nD τ).loc main_arg2) (ix2 f k)) (fun f => m ((c : Thread nD τ).loc main_arg3) (ix1 f))
      (fun q' f => m ((c : Thread nD τ).loc main_arg4) (ix2 q' f)) (fun q' => m ((c : Thread nD τ).loc main_arg5) (ix1 q')) q
  have e0 : (fun k => V m c main_v0 (ix2 (flatRow b s) k)) = fun k => m ((c : Thread nD τ).loc main_arg0) (ix3 b s k) :=
    funext fun k => flat_at m c b s k
  have e1 : (fun k => V m c main_arg1 (ix1 k)) = fun k => m ((c : Thread nD τ).loc main_arg1) (ix1 k) :=
    funext fun k => congrFun (V_main_arg1 m c) (ix1 k)
  have e2 : (fun f k => V m c main_v1 (ix2 k f)) = fun f k => m ((c : Thread nD τ).loc main_arg2) (ix2 f k) :=
    funext fun f => funext fun k => up_at m c k f
  have e3 : (fun f => V m c main_arg3 (ix1 f)) = fun f => m ((c : Thread nD τ).loc main_arg3) (ix1 f) :=
    funext fun f => congrFun (V_main_arg3 m c) (ix1 f)
  have e4 : (fun q' f => V m c main_v2 (ix2 f q')) = fun q' f => m ((c : Thread nD τ).loc main_arg4) (ix2 q' f) :=
    funext fun q' => funext fun f => down_at m c f q'
  have e5 : (fun q' => V m c main_arg5 (ix1 q')) = fun q' => m ((c : Thread nD τ).loc main_arg5) (ix1 q') :=
    funext fun q' => congrFun (V_main_arg5 m c) (ix1 q')
  rw [e0, e1, e2, e3, e4, e5]

/-! ## The run -/

/-- From the frame run's post: the result array holds the network on every row of the input, -/
theorem result_of_post (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_v4)
      = G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) :=
  ((h c).2 main_v4 (Pipeline.mem_restRefs_of main_v4 (by decide) (by decide))).trans
    ((tail_result m c).trans (result_eq m c))

/-- and the six arguments are as launched: the three the region stages are its unwritten inputs, the three only
    the host reads are written by no host line. -/
theorem kept_of_post (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (by decide))).trans (W_main_arg0 m (dats m) c),
    ((h c).1 1).trans (((dats m 0 c).arrAt_in 1 rfl _).trans ((A_eq m c 1).trans (V_main_arg1 m c))),
    ((h c).2 main_arg2 (Pipeline.mem_restRefs_of main_arg2 (by decide) (by decide))).trans (W_main_arg2 m (dats m) c),
    ((h c).1 3).trans (((dats m 0 c).arrAt_in 3 rfl _).trans ((A_eq m c 3).trans (V_main_arg3 m c))),
    ((h c).2 main_arg4 (Pipeline.mem_restRefs_of main_arg4 (by decide) (by decide))).trans (W_main_arg4 m (dats m) c),
    ((h c).1 5).trans (((dats m 0 c).arrAt_in 5 rfl _).trans ((A_eq m c 5).trans (V_main_arg5 m c)))⟩

/-- Every weakly fair execution of the kernel's program terminates with the result array at the network on every
    row of the input, and the arguments as launched. -/
theorem run : θ_run defs (onTc (τ := τ) (main (F := Ideal))) ⟨m, fun _ => 0, ρ⟩ fun r => ∀ c : Dev nD,
    r.2.mem ((c.tc : Thread nD τ).loc main_v4)
        = G (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨result_of_post m r h c, kept_of_post m r h c⟩) (run_main m ρ)

end Cert.FeedForward.KernelValue

end
-- ==== Proof.RefValue.lean ====
/-
  The reference's result.

  The reference works on the unflattened `[16, 4096, 8]` input: it encodes every entry, contracts the 8 wires of
  each row against the first layer's weights, adds the bias, clips at zero, contracts the 2048 hidden units
  against the second layer's weights and adds the second bias. Read one operation at a time at an index
  `(b, s, q)`, with each broadcast and each contraction's operand indices written by coordinates, that is output
  `q` of the network on row `(b, s)`.
-/
import proofs.«135342_j65481071404952_1_alg».proof.Proof.Gen.ReferenceIdeal.Read
import proofs.«135342_j65481071404952_1_alg».proof.Proof.Spec

noncomputable section

namespace Cert.FeedForward.RefValue

open Cert.ReferenceIdeal Cert.ReferenceIdeal.Gen Cert.ReferenceIdeal.Read Idealize.ShloMosaic Idealize.ShloMosaic.ValueIdx
open Cert.FeedForward

/-! ## The operand indices, by coordinates -/

/-- Hidden unit `f` of row `(b, s)` reads wire `k` of that row of the input -/
theorem input_idx (b : Fin 16) (s : Fin 4096) (q : Fin 8) (f : Fin 2048) (k : Fin 8) :
    lidx_main_v5 (lidx_main_v10 (ix3 b s q) f) k = ix3 b s k :=
  funext fun a => Fin.ext (by match a with | ⟨0, _⟩ => rfl | ⟨1, _⟩ => rfl | ⟨2, _⟩ => rfl)
/-- (the angle repeated over the rows is read at the wire: angle `k`), -/
theorem angle_idx (b : Fin 16) (s : Fin 4096) (k : Fin 8) :
    idx_main_v2 (idx_main_v3 (ix3 b s k)) = ix1 k :=
  funext fun a => Fin.ext (by match a with | ⟨0, _⟩ => rfl)
/-- the first layer's weight `(f, k)` -/
theorem up_idx (b : Fin 16) (s : Fin 4096) (q : Fin 8) (f : Fin 2048) (k : Fin 8) :
    ridx_main_v5 (lidx_main_v10 (ix3 b s q) f) k = ix2 f k :=
  funext fun a => Fin.ext (by match a with | ⟨0, _⟩ => rfl | ⟨1, _⟩ => rfl)
/-- and its bias `f`; -/
theorem upBias_idx (b : Fin 16) (s : Fin 4096) (q : Fin 8) (f : Fin 2048) :
    idx_main_v6 (idx_main_v7 (lidx_main_v10 (ix3 b s q) f)) = ix1 f :=
  funext fun a => Fin.ext (by match a with | ⟨0, _⟩ => rfl)
/-- output `q` reads the second layer's weight `(q, f)` -/
theorem down_idx (b : Fin 16) (s : Fin 4096) (q : Fin 8) (f : Fin 2048) :
    ridx_main_v10 (ix3 b s q) f = ix2 q f :=
  funext fun a => Fin.ext (by match a with | ⟨0, _⟩ => rfl | ⟨1, _⟩ => rfl)
/-- and its bias `q`. -/
theorem downBias_idx (b : Fin 16) (s : Fin 4096) (q : Fin 8) :
    idx_main_v11 (idx_main_v12 (ix3 b s q)) = ix1 q :=
  funext fun a => Fin.ext (by match a with | ⟨0, _⟩ => rfl)

/-! ## The reference is the network on every row -/

/-- The encoded input at `(b, s, k)` is wire `k` of the encoding of row `(b, s)`. -/
theorem encoded_apply (x0 : (⟨S16x4096x8, .f32⟩ : BufTy).Contents (Elt Ideal)) (x1 : (⟨S8, .f32⟩ : BufTy).Contents (Elt Ideal))
    (b : Fin 16) (s : Fin 4096) (k : Fin 8) :
    val_main_v4 (F := Ideal) x0 x1 (ix3 b s k) = encode (fun k' => x0 (ix3 b s k')) (fun k' => x1 (ix1 k')) k := by
  rw [val_main_v4_apply, val_main_v0_apply, val_main_v3_apply, val_main_v2_apply, val_main_v1_apply, angle_idx]
  rfl

theorem ref_eq (x0 : (⟨S16x4096x8, .f32⟩ : BufTy).Contents (Elt Ideal)) (x1 : (⟨S8, .f32⟩ : BufTy).Contents (Elt Ideal))
    (x2 : (⟨S2048x8, .f32⟩ : BufTy).Contents (Elt Ideal)) (x3 : (⟨S2048, .f32⟩ : BufTy).Contents (Elt Ideal))
    (x4 : (⟨S8x2048, .f32⟩ : BufTy).Contents (Elt Ideal)) (x5 : (⟨S8, .f32⟩ : BufTy).Contents (Elt Ideal)) :
    val_main_v13 (F := Ideal) x0 x1 x2 x3 x4 x5 = G x0 x1 x2 x3 x4 x5 := by
  funext i
  obtain ⟨b, s, q, rfl⟩ : ∃ (b : Fin 16) (s : Fin 4096) (q : Fin 8), i = ix3 b s q := ⟨i 0, i 1, i 2, eq_ix3 i⟩
  simp only [val_main_v13_apply, val_main_v10_apply, val_main_v12_apply, val_main_v11_apply, val_main_v9_apply,
    val_main_v8_apply, val_main_v5_apply, val_main_v7_apply, val_main_v6_apply, val_main_call0_v0_apply,
    val_main_call0_cst_apply, input_idx, up_idx, upBias_idx, down_idx, downBias_idx, encoded_apply]
  rfl

end Cert.FeedForward.RefValue

end
-- ==== Proof.lean ====
/-
  A two-layer network on encoded angles, tiled over rows, against the same network written with einsums.

  Both programs take `x : [16, 4096, 8]`, angles `θ : [8]`, weights `w1 : [2048, 8]`, `w2 : [8, 2048]` and biases
  `b1 : [2048]`, `b2 : [8]`, and compute for every row `(b, s)` of `x` and every output `q`

      Σ f, max (Σ k, cos (x b s k) · cos (θ k) · w1 f k + b1 f) 0 · w2 q f + b2 q.

  The kernel flattens `x` to 65536 rows, transposes the weights, computes 1024 rows per grid point with two matrix
  products whose operands pass through a narrower float format, and reshapes the result back; the reference
  contracts the unflattened arrays directly. On the extended reals a change of float format is the identity and a
  finite sum does not depend on the order or grouping of its terms, so both results are the function `G` of
  Proof/Spec.lean, index by index: Proof/KernelValue.lean reads it off the kernel's run (the blocks the points
  write back tile the flattened result, Proof/Blocks.lean and Proof/Payload.lean), Proof/RefValue.lean off the
  reference's. No rewrite separates the kernel from its idealization, so that conjunct is trivial, and the three
  frames are the programs' runs with the results dropped. The precondition (finite inputs) is not used: no law
  applied here fails at an infinity.
-/
import proofs.«135342_j65481071404952_1_alg».proof.Defs
import proofs.«135342_j65481071404952_1_alg».proof.Proof.Gen.Kernel
import proofs.«135342_j65481071404952_1_alg».proof.Proof.Gen.Kernel.Skeleton
import proofs.«135342_j65481071404952_1_alg».proof.Proof.Gen.Kernel.Launch
import proofs.«135342_j65481071404952_1_alg».proof.Proof.Gen.Kernel.Points
import proofs.«135342_j65481071404952_1_alg».proof.Proof.Gen.Kernel.Frame
import proofs.«135342_j65481071404952_1_alg».proof.Proof.Gen.KernelIdeal
import proofs.«135342_j65481071404952_1_alg».proof.Proof.Gen.KernelIdeal.Skeleton
import proofs.«135342_j65481071404952_1_alg».proof.Proof.Gen.KernelIdeal.Launch
import proofs.«135342_j65481071404952_1_alg».proof.Proof.Gen.KernelIdeal.Points
import proofs.«135342_j65481071404952_1_alg».proof.Proof.Gen.KernelIdeal.Frame
import proofs.«135342_j65481071404952_1_alg».proof.Proof.Gen.ReferenceIdeal
import proofs.«135342_j65481071404952_1_alg».proof.Proof.Gen.ReferenceIdeal.Run
import proofs.«135342_j65481071404952_1_alg».proof.Proof.Gen.ReferenceIdeal.Read
import proofs.«135342_j65481071404952_1_alg».proof.Proof.Gen.Pre_finite_inputs
import proofs.«135342_j65481071404952_1_alg».proof.Proof.KernelValue
import proofs.«135342_j65481071404952_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, both programs end with the network's output on every row of the input. -/
theorem algebraic : Cert.algebraic_KernelIdeal_ReferenceIdeal := by
  intro m ρ m' ρ' _ hagree
  refine ⟨fun c => Cert.FeedForward.G
      (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4))
      (m ((c : Thread Cert.KernelIdeal.nD Cert.KernelIdeal.τ).loc Cert.KernelIdeal.main_arg5)),
    Cert.FeedForward.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.FeedForward.RefValue.ref_eq,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
